-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S3x128 : Shape := ⟨2, ![3, 128]⟩
abbrev S3 : Shape := ⟨1, ![3]⟩
abbrev S2x600000 : Shape := ⟨2, ![2, 600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg7 : FVec F S128 .f32) (main_arg8 : FVec F S128x128 .f32) (main_arg9 : FVec F S3x128 .f32) (main_arg10 : FVec F S3 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S3x128 .f32) (main_arg10 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : FVec F S128 .f32) (main_arg8 : FVec F S128x128 .f32) (main_arg9 : FVec F S3x128 .f32) (main_arg10 : FVec F S3 .f32) (main_arg11 : IVec S2x600000 32) (main_arg12 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S128x128 : Shape := ⟨2, ![128, 128]⟩
abbrev S128 : Shape := ⟨1, ![128]⟩
abbrev S3x128 : Shape := ⟨2, ![3, 128]⟩
abbrev S3 : Shape := ⟨1, ![3]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x128 : Shape := ⟨2, ![5000, 128]⟩
abbrev S32x128 : Shape := ⟨2, ![32, 128]⟩
abbrev S32 : Shape := ⟨1, ![32]⟩
abbrev S32x1 : Shape := ⟨2, ![32, 1]⟩
abbrev S128x3 : Shape := ⟨2, ![128, 3]⟩
abbrev S1x3 : Shape := ⟨2, ![1, 3]⟩
abbrev S32x3 : Shape := ⟨2, ![32, 3]⟩

abbrev nBuf : Space → Nat
  | .hbm => 101
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S3x128, .f32⟩
  | .hbm, ⟨10, _⟩ => ⟨S3, .f32⟩
  | .hbm, ⟨11, _⟩ => ⟨S2x600000, .i32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S_, .f32⟩
  | .hbm, ⟨33, _⟩ => ⟨S50000, .f32⟩
  | .hbm, ⟨34, _⟩ => ⟨S600000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S128x128, .bf16⟩
  | .hbm, ⟨46, _⟩ => ⟨S1x128, .f32⟩
  | .hbm, ⟨47, _⟩ => ⟨S50000x128, .f32⟩
  | .hbm, ⟨48, _⟩ => ⟨S128x128, .f32⟩
  | .hbm, ⟨49, _⟩ => ⟨S128x128, .bf16⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .f32⟩
  | .hbm, ⟨61, _⟩ => ⟨S_, .f32⟩
  | .hbm, ⟨62, _⟩ => ⟨S50000x128, .f32⟩
  | .hbm, ⟨63, _⟩ => ⟨S600000x1, .i32⟩
  | .hbm, ⟨64, _⟩ => ⟨S50000x128, .f32⟩
  | .hbm, ⟨65, _⟩ => ⟨S_, .f32⟩
  | .hbm, ⟨66, _⟩ => ⟨S50000, .f32⟩
  | .hbm, ⟨67, _⟩ => ⟨S600000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S128x128, .f32⟩
  | .hbm, ⟨76, _⟩ => ⟨S128x128, .bf16⟩
  | .hbm, ⟨77, _⟩ => ⟨S128x128, .f32⟩
  | .hbm, ⟨78, _⟩ => ⟨S128x128, .bf16⟩
  | .hbm, ⟨79, _⟩ => ⟨S1x128, .f32⟩
  | .hbm, ⟨80, _⟩ => ⟨S50000x128, .f32⟩
  | .hbm, ⟨81, _⟩ => ⟨S_, .f32⟩
  | .hbm, ⟨82, _⟩ => ⟨S32x128, .f32⟩
  | .hbm, ⟨83, _⟩ => ⟨S50000x1, .i32⟩
  | .hbm, ⟨84, _⟩ => ⟨S32x128, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S32, .f32⟩
  | .hbm, ⟨89, _⟩ => ⟨S50000x1, .i32⟩
  | .hbm, ⟨90, _⟩ => ⟨S32, .f32⟩
  | .hbm, ⟨91, _⟩ => ⟨S_, .f32⟩
  | .hbm, ⟨92, _⟩ => ⟨S32, .f32⟩
  | .hbm, ⟨93, _⟩ => ⟨S32, .f32⟩
  | .hbm, ⟨94, _⟩ => ⟨S32x1, .f32⟩
  | .hbm, ⟨95, _⟩ => ⟨S32x128, .f32⟩
  | .hbm, ⟨96, _⟩ => ⟨S32x128, .f32⟩
  | .hbm, ⟨97, _⟩ => ⟨S128x3, .f32⟩
  | .hbm, ⟨98, _⟩ => ⟨S128x3, .bf16⟩
  | .hbm, ⟨99, _⟩ => ⟨S1x3, .f32⟩
  | .hbm, ⟨100, _⟩ => ⟨S32x3, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .bf16⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S5000x128, .f32⟩
  | .local _ .vmem, ⟨23, _⟩ => ⟨S5000x128, .f32⟩
  | .local _ .vmem, ⟨24, _⟩ => ⟨S32x128, .f32⟩
  | .local _ .vmem, ⟨25, _⟩ => ⟨S128x3, .bf16⟩
  | .local _ .vmem, ⟨26, _⟩ => ⟨S1x3, .f32⟩
  | .local _ .vmem, ⟨27, _⟩ => ⟨S32x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem1_0 : DmaSem sig := 25
abbrev cc3_sem2_0 : DmaSem sig := 26
abbrev cc3_sem3_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S32x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x3 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S32x128 : S_.BroadcastsInDim S32x128 (![] : Fin 0 → Fin S32x128.rank)
  bcast_S_S32 : S_.BroadcastsInDim S32 (![] : Fin 0 → Fin S32.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  transposes_S3x128_S128x3_1_0 : S3x128.Transposes [1, 0] S128x3
  shapeCasts_S3_S1x3 : S3.ShapeCasts S1x3
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S32x3 : S1x3.Broadcasts S32x3
  inb_S32x3_S32x3_0_0 : ∀ a, (![0, 0] : Fin 2 → Nat) a + S32x3.size a ≤ S32x3.size a
  h_S32x3 : 0 < S32x3.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  scatter_S32x128_S50000x1_S50000x128_1_0_0_1_wf : ScatterDims.WF S32x128 S50000x1 S50000x128 [1] [0] [0] 1
  scatter_S32_S50000x1_S50000_n_0_0_1_wf : ScatterDims.WF S32 S50000x1 S50000 [] [0] [0] 1
  dot_S32x128_S128x3_S32x3_1_0_0_1_n_n_wf : DotDims.WF S32x128 S128x3 S32x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S32x128.size a ≤ S32x128.size a
  hwx3_0 : ∀ i : grid3.Coords, EltTy.bits .f32 = 32 ∨ (Rect.block (s := S32x128) S32x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x3.size a ≤ S128x3.size a
  hwx3_1 : ∀ i : grid3.Coords, EltTy.bits .bf16 = 32 ∨ (Rect.block (s := S128x3) S128x3.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3.size a ≤ S1x3.size a
  hwx3_2 : ∀ i : grid3.Coords, EltTy.bits .f32 = 32 ∨ (Rect.block (s := S1x3) S1x3.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x3.size a ≤ S32x3.size a
  hwx3_3 : ∀ i : grid3.Coords, EltTy.bits .f32 = 32 ∨ (Rect.block (s := S32x3) S32x3.size (cc3_transform_3 i) (hinb3_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def dot_S32x128_S128x3_S32x3_1_0_0_1_n_n : DotDims S32x128 S128x3 S32x3 where
  lhsContracting := [1]
  rhsContracting := [0]
  lhsNonContracting := [0]
  rhsNonContracting := [1]
  lhsBatch := []
  rhsBatch := []
  wf := dot_S32x128_S128x3_S32x3_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v68) S32x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v70) S128x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S32x3.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S3x128 : Shape := ⟨2, ![3, 128]⟩
abbrev S3 : Shape := ⟨1, ![3]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S32x128 : Shape := ⟨2, ![32, 128]⟩
abbrev S32 : Shape := ⟨1, ![32]⟩
abbrev S32x1 : Shape := ⟨2, ![32, 1]⟩
abbrev S128x3 : Shape := ⟨2, ![128, 3]⟩
abbrev S32x3 : Shape := ⟨2, ![32, 3]⟩
abbrev S1x3 : Shape := ⟨2, ![1, 3]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S3x128, .f32⟩
  | .hbm, ⟨10, _⟩ => ⟨S3, .f32⟩
  | .hbm, ⟨11, _⟩ => ⟨S2x600000, .i32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S_, .f32⟩
  | .hbm, ⟨31, _⟩ => ⟨S600000, .f32⟩
  | .hbm, ⟨32, _⟩ => ⟨S_, .f32⟩
  | .hbm, ⟨33, _⟩ => ⟨S50000, .f32⟩
  | .hbm, ⟨34, _⟩ => ⟨S600000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S128x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S_, .f32⟩
  | .hbm, ⟨71, _⟩ => ⟨S50000x128, .f32⟩
  | .hbm, ⟨72, _⟩ => ⟨S600000x1, .i32⟩
  | .hbm, ⟨73, _⟩ => ⟨S50000x128, .f32⟩
  | .hbm, ⟨74, _⟩ => ⟨S_, .f32⟩
  | .hbm, ⟨75, _⟩ => ⟨S600000, .f32⟩
  | .hbm, ⟨76, _⟩ => ⟨S_, .f32⟩
  | .hbm, ⟨77, _⟩ => ⟨S50000, .f32⟩
  | .hbm, ⟨78, _⟩ => ⟨S600000x1, .i32⟩
  | .hbm, ⟨79, _⟩ => ⟨S50000, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S50000x1, .f32⟩
  | .hbm, ⟨84, _⟩ => ⟨S50000x128, .f32⟩
  | .hbm, ⟨85, _⟩ => ⟨S50000x128, .f32⟩
  | .hbm, ⟨86, _⟩ => ⟨S128x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S128x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S32x128, .f32⟩
  | .hbm, ⟨99, _⟩ => ⟨S50000x1, .i32⟩
  | .hbm, ⟨100, _⟩ => ⟨S32x128, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S32, .f32⟩
  | .hbm, ⟨105, _⟩ => ⟨S50000x1, .i32⟩
  | .hbm, ⟨106, _⟩ => ⟨S32, .f32⟩
  | .hbm, ⟨107, _⟩ => ⟨S_, .f32⟩
  | .hbm, ⟨108, _⟩ => ⟨S32, .f32⟩
  | .hbm, ⟨109, _⟩ => ⟨S32, .f32⟩
  | .hbm, ⟨110, _⟩ => ⟨S32x1, .f32⟩
  | .hbm, ⟨111, _⟩ => ⟨S32x128, .f32⟩
  | .hbm, ⟨112, _⟩ => ⟨S32x128, .f32⟩
  | .hbm, ⟨113, _⟩ => ⟨S128x3, .f32⟩
  | .hbm, ⟨114, _⟩ => ⟨S32x3, .f32⟩
  | .hbm, ⟨115, _⟩ => ⟨S1x3, .f32⟩
  | .hbm, ⟨116, _⟩ => ⟨S32x3, .f32⟩
  | .hbm, ⟨117, _⟩ => ⟨S32x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_c_4 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S32x128 : S_.BroadcastsInDim S32x128 (![] : Fin 0 → Fin S32x128.rank)
  bcast_S_S32 : S_.BroadcastsInDim S32 (![] : Fin 0 → Fin S32.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  transposes_S3x128_S128x3_1_0 : S3x128.Transposes [1, 0] S128x3
  bcast_S3_S1x3_1 : S3.BroadcastsInDim S1x3 (![1] : Fin 1 → Fin S1x3.rank)
  bcast_S1x3_S32x3_0_1 : S1x3.BroadcastsInDim S32x3 (![0, 1] : Fin 2 → Fin S32x3.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  scatter_S32x128_S50000x1_S50000x128_1_0_0_1_wf : ScatterDims.WF S32x128 S50000x1 S50000x128 [1] [0] [0] 1
  scatter_S32_S50000x1_S50000_n_0_0_1_wf : ScatterDims.WF S32 S50000x1 S50000 [] [0] [0] 1
  dot_S32x128_S128x3_S32x3_1_0_0_1_n_n_wf : DotDims.WF S32x128 S128x3 S32x3 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def dot_S32x128_S128x3_S32x3_1_0_0_1_n_n : DotDims S32x128 S128x3 S32x3 where
  lhsContracting := [1]
  rhsContracting := [0]
  lhsNonContracting := [0]
  rhsNonContracting := [1]
  lhsBatch := []
  rhsBatch := []
  wf := dot_S32x128_S128x3_S32x3_1_0_0_1_n_n_wf

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.Layers.lean ====
/-
  The three dense layers of the network, entry by entry over the extended reals, and the two spellings each has.

  A row of activations meets a weight matrix through `rowCol a w p q = ∑ κ, a (p, κ) * w (κ, q)`. The neighbourhood
  layer is `max ((rowCol a wl + rowCol x wr) + b) 0` as the kernel adds it up and `max ((rowCol a wl + b) + rowCol x wr) 0`
  as the reference does: one value, since addition of extended reals is commutative and associative. The plain layer is
  `max (rowCol h w + b) 0` and the read-out `rowCol h w + b`, the same on both sides. Each statement below reads one
  spelling — a kernel body's vector operations on blocks, or the host's array operations — at the entry `(p, q)`,
  for any number of rows `n`, inner extent `k` and columns `d`; a change of float format is the identity on
  extended reals, so the narrowed operands of the kernel's products read as themselves.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«111446_j34531537060254_1_alg».proof.Proof.LibPlainDot
import proofs.«111446_j34531537060254_1_alg».proof.Proof.LibBroadcastInDim

noncomputable section

open scoped BigOperators

namespace Cert.Layers

open Idealize.ShloMosaic Idealize.ShloMosaic.ValueIdx Idealize.ShloMosaic.ValueLayout Idealize.ShloMosaic.PlainDot

variable {n k d : ℕ}

/-- The shape of a matrix of `r` rows and `c` columns. -/
abbrev Mat (r c : ℕ) : Shape := ⟨2, ![r, c]⟩
/-- The shape of a vector of `c` entries. -/
abbrev Vc (c : ℕ) : Shape := ⟨1, ![c]⟩
/-- The shape of a scalar. -/
abbrev Sc : Shape := ⟨0, ![]⟩

/-- Row `p` of `a` against column `q` of `w`. -/
def rowCol (a : (Mat n k).Idx → EReal) (w : (Mat k d).Idx → EReal) (p : Fin n) (q : Fin d) : EReal :=
  ∑ κ : Fin k, a (ix2 p κ) * w (ix2 κ q)

/-- The zero both programs clamp against, as the float word they print. -/
abbrev zero32 : EReal := Ideal.ofBits .f32 0x00000000#32

/-- The neighbourhood layer at `(p, q)`: the aggregated row through `wl`, the node's own row through `wr`, the bias,
    clamped below at zero. -/
def combineAt (a x : (Mat n k).Idx → EReal) (wl wr : (Mat k d).Idx → EReal) (b : Fin d → EReal) (p : Fin n) (q : Fin d) : EReal :=
  max ((rowCol a wl p q + rowCol x wr p q) + b q) zero32

/-- The plain layer at `(p, q)`: the row through `w`, the bias, clamped below at zero. -/
def linearAt (h : (Mat n k).Idx → EReal) (w : (Mat k d).Idx → EReal) (b : Fin d → EReal) (p : Fin n) (q : Fin d) : EReal :=
  max (rowCol h w p q + b q) zero32

/-- The read-out at `(p, q)`: the row through `w`, and the bias. -/
def affineAt (h : (Mat n k).Idx → EReal) (w : (Mat k d).Idx → EReal) (b : Fin d → EReal) (p : Fin n) (q : Fin d) : EReal :=
  rowCol h w p q + b q

/-- The neighbourhood layer as a whole matrix. -/
def combine (a x : (Mat n k).Idx → EReal) (wl wr : (Mat k d).Idx → EReal) (b : Fin d → EReal) : (Mat n d).Idx → EReal :=
  fun i => combineAt a x wl wr b (i 0) (i 1)

/-- The plain layer as a whole matrix. -/
def linear (h : (Mat n k).Idx → EReal) (w : (Mat k d).Idx → EReal) (b : Fin d → EReal) : (Mat n d).Idx → EReal :=
  fun i => linearAt h w b (i 0) (i 1)

/-- The read-out as a whole matrix. -/
def affine (h : (Mat n k).Idx → EReal) (w : (Mat k d).Idx → EReal) (b : Fin d → EReal) : (Mat n d).Idx → EReal :=
  fun i => affineAt h w b (i 0) (i 1)

/-- Equal inputs give equal neighbourhood layers. -/
theorem combine_congr {a a' x x' : (Mat n k).Idx → EReal} {wl wl' wr wr' : (Mat k d).Idx → EReal} {b b' : Fin d → EReal}
    (ha : a = a') (hx : x = x') (hwl : wl = wl') (hwr : wr = wr') (hb : b = b') :
    combine a x wl wr b = combine a' x' wl' wr' b' := by subst ha hx hwl hwr hb; rfl

/-- Equal inputs give equal plain layers. -/
theorem linear_congr {h h' : (Mat n k).Idx → EReal} {w w' : (Mat k d).Idx → EReal} {b b' : Fin d → EReal}
    (hh : h = h') (hw : w = w') (hb : b = b') : linear h w b = linear h' w' b' := by subst hh hw hb; rfl

/-- Equal inputs give equal read-outs. -/
theorem affine_congr {h h' : (Mat n k).Idx → EReal} {w w' : (Mat k d).Idx → EReal} {b b' : Fin d → EReal}
    (hh : h = h') (hw : w = w') (hb : b = b') : affine h w b = affine h' w' b' := by subst hh hw hb; rfl

/-- A vector laid as the one row of a matrix by a shape cast reads, along that row, as the vector. -/
theorem row_of_cast (v : (Vc d).Idx → EReal) (h : (Vc d).ShapeCasts (Mat 1 d)) :
    (fun q : Fin d => shapeCast (Mat 1 d) v h (ix2 (0 : Fin 1) q)) = fun q => v (ix1 q) :=
  funext fun q => shapeCast_a_1a_apply v h 0 q

/-! ## An entry depends on one row of the activations, one column of each weight matrix, one bias entry -/

theorem rowCol_congr {n' : ℕ} (a : (Mat n k).Idx → EReal) (a' : (Mat n' k).Idx → EReal) (w w' : (Mat k d).Idx → EReal)
    (p : Fin n) (p' : Fin n') (q : Fin d) (ha : ∀ κ, a (ix2 p κ) = a' (ix2 p' κ)) (hw : ∀ κ, w (ix2 κ q) = w' (ix2 κ q)) :
    rowCol a w p q = rowCol a' w' p' q := by
  unfold rowCol
  exact Finset.sum_congr rfl fun κ _ => by rw [ha κ, hw κ]

theorem combineAt_congr {n' : ℕ} (a x : (Mat n k).Idx → EReal) (a' x' : (Mat n' k).Idx → EReal)
    (wl wr wl' wr' : (Mat k d).Idx → EReal) (b b' : Fin d → EReal) (p : Fin n) (p' : Fin n') (q : Fin d)
    (ha : ∀ κ, a (ix2 p κ) = a' (ix2 p' κ)) (hx : ∀ κ, x (ix2 p κ) = x' (ix2 p' κ))
    (hwl : ∀ κ, wl (ix2 κ q) = wl' (ix2 κ q)) (hwr : ∀ κ, wr (ix2 κ q) = wr' (ix2 κ q)) (hb : b q = b' q) :
    combineAt a x wl wr b p q = combineAt a' x' wl' wr' b' p' q := by
  unfold combineAt
  rw [rowCol_congr a a' wl wl' p p' q ha hwl, rowCol_congr x x' wr wr' p p' q hx hwr, hb]

theorem linearAt_congr {n' : ℕ} (h : (Mat n k).Idx → EReal) (h' : (Mat n' k).Idx → EReal)
    (w w' : (Mat k d).Idx → EReal) (b b' : Fin d → EReal) (p : Fin n) (p' : Fin n') (q : Fin d)
    (hh : ∀ κ, h (ix2 p κ) = h' (ix2 p' κ)) (hw : ∀ κ, w (ix2 κ q) = w' (ix2 κ q)) (hb : b q = b' q) :
    linearAt h w b p q = linearAt h' w' b' p' q := by
  unfold linearAt
  rw [rowCol_congr h h' w w' p p' q hh hw, hb]

theorem affineAt_congr {n' : ℕ} (h : (Mat n k).Idx → EReal) (h' : (Mat n' k).Idx → EReal)
    (w w' : (Mat k d).Idx → EReal) (b b' : Fin d → EReal) (p : Fin n) (p' : Fin n') (q : Fin d)
    (hh : ∀ κ, h (ix2 p κ) = h' (ix2 p' κ)) (hw : ∀ κ, w (ix2 κ q) = w' (ix2 κ q)) (hb : b q = b' q) :
    affineAt h w b p q = affineAt h' w' b' p' q := by
  unfold affineAt
  rw [rowCol_congr h h' w w' p p' q hh hw, hb]

/-! ## The kernel bodies' spellings: vector operations on a block -/

/-- The neighbourhood body: two products into zero accumulators with narrowed left operands, their sum, the bias row
    spread over the rows, the maximum with a splat zero. -/
theorem kernel_combine_apply (dd : DotDims (Mat n k) (Mat k d) (Mat n d)) (hd : IsPlain dd)
    (hb : (Mat 1 d).Broadcasts (Mat n d)) (ht : FTy.bf16.bits < FTy.f32.bits)
    (a x : FVec Ideal (Mat n k) .f32) (wl wr : FVec Ideal (Mat k d) .bf16) (b : FVec Ideal (Mat 1 d) .f32) (p : Fin n) (q : Fin d) :
    maximumf
        (addf
          (addf (matmul dd none (truncf .bf16 a ht) wl (constant (Mat n d) .f32 0x00000000#32))
                (matmul dd none (truncf .bf16 x ht) wr (constant (Mat n d) .f32 0x00000000#32)))
          (broadcastTo (Mat n d) b hb))
        (broadcast (Mat n d) (Scalar.ofBits (F := Ideal) .f32 0x00000000#32)) (ix2 p q)
      = combineAt a x wl wr (fun q => b (ix2 (0 : Fin 1) q)) p q := by
  rw [maximumf_apply, addf_apply, addf_apply, broadcast_apply, broadcastTo_1b_ab_apply]
  unfold matmul
  rw [Ideal.matmul_constant_zero_apply, Ideal.matmul_constant_zero_apply,
    sum_contr hd (truncf .bf16 a ht) wl p q, sum_contr hd (truncf .bf16 x ht) wr p q]
  rfl

/-- The plain body: one product into a zero accumulator with a narrowed left operand, the bias row spread over the
    rows, the maximum with a splat zero. -/
theorem kernel_linear_apply (dd : DotDims (Mat n k) (Mat k d) (Mat n d)) (hd : IsPlain dd)
    (hb : (Mat 1 d).Broadcasts (Mat n d)) (ht : FTy.bf16.bits < FTy.f32.bits)
    (h : FVec Ideal (Mat n k) .f32) (w : FVec Ideal (Mat k d) .bf16) (b : FVec Ideal (Mat 1 d) .f32) (p : Fin n) (q : Fin d) :
    maximumf
        (addf (matmul dd none (truncf .bf16 h ht) w (constant (Mat n d) .f32 0x00000000#32)) (broadcastTo (Mat n d) b hb))
        (broadcast (Mat n d) (Scalar.ofBits (F := Ideal) .f32 0x00000000#32)) (ix2 p q)
      = linearAt h w (fun q => b (ix2 (0 : Fin 1) q)) p q := by
  rw [maximumf_apply, addf_apply, broadcast_apply, broadcastTo_1b_ab_apply]
  unfold matmul
  rw [Ideal.matmul_constant_zero_apply, sum_contr hd (truncf .bf16 h ht) w p q]
  rfl

/-- The read-out body: one product into a zero accumulator with a narrowed left operand, and the bias row spread over
    the rows. -/
theorem kernel_affine_apply (dd : DotDims (Mat n k) (Mat k d) (Mat n d)) (hd : IsPlain dd)
    (hb : (Mat 1 d).Broadcasts (Mat n d)) (ht : FTy.bf16.bits < FTy.f32.bits)
    (h : FVec Ideal (Mat n k) .f32) (w : FVec Ideal (Mat k d) .bf16) (b : FVec Ideal (Mat 1 d) .f32) (p : Fin n) (q : Fin d) :
    addf (matmul dd none (truncf .bf16 h ht) w (constant (Mat n d) .f32 0x00000000#32)) (broadcastTo (Mat n d) b hb) (ix2 p q)
      = affineAt h w (fun q => b (ix2 (0 : Fin 1) q)) p q := by
  rw [addf_apply, broadcastTo_1b_ab_apply]
  unfold matmul
  rw [Ideal.matmul_constant_zero_apply, sum_contr hd (truncf .bf16 h ht) w p q]
  rfl

/-! ## The reference's spellings: the host's array operations -/

/-- The reference's neighbourhood layer: the aggregate's product, the bias laid as a row and spread over the rows, the
    node's own product, the maximum with a spread zero. The bias is added between the two products here and after
    them in the kernel. -/
theorem host_combine_apply (dd : DotDims (Mat n k) (Mat k d) (Mat n d)) (hd : IsPlain dd)
    (hb1 : (Vc d).BroadcastsInDim (Mat 1 d) (![1] : Fin 1 → Fin 2)) (hb2 : (Mat 1 d).BroadcastsInDim (Mat n d) (![0, 1] : Fin 2 → Fin 2))
    (hb0 : Sc.BroadcastsInDim (Mat n d) ![])
    (a x : FVec Ideal (Mat n k) .f32) (wl wr : FVec Ideal (Mat k d) .f32) (b : FVec Ideal (Vc d) .f32) (p : Fin n) (q : Fin d) :
    maximumf
        (addf
          (addf (FloatOps.dotGeneral dd none .single a wl)
                (broadcastInDim (Mat n d) ![0, 1] hb2 (broadcastInDim (Mat 1 d) ![1] hb1 b)))
          (FloatOps.dotGeneral dd none .single x wr))
        (broadcastInDim (Mat n d) ![] hb0 (constant (F := Ideal) Sc .f32 0x00000000#32)) (ix2 p q)
      = combineAt a x wl wr (fun q => b (ix1 q)) p q := by
  rw [maximumf_apply, addf_apply, addf_apply, broadcastInDim_scalar_apply, bcast_1n_rn_apply, bcast_n_1n_apply,
    PlainDot.dotGeneral_apply hd, PlainDot.dotGeneral_apply hd]
  unfold combineAt rowCol
  rw [add_right_comm]
  rfl

/-- The reference's plain layer: the product, the bias laid as a row and spread over the rows, the maximum with a spread
    zero. -/
theorem host_linear_apply (dd : DotDims (Mat n k) (Mat k d) (Mat n d)) (hd : IsPlain dd)
    (hb1 : (Vc d).BroadcastsInDim (Mat 1 d) (![1] : Fin 1 → Fin 2)) (hb2 : (Mat 1 d).BroadcastsInDim (Mat n d) (![0, 1] : Fin 2 → Fin 2))
    (hb0 : Sc.BroadcastsInDim (Mat n d) ![])
    (h : FVec Ideal (Mat n k) .f32) (w : FVec Ideal (Mat k d) .f32) (b : FVec Ideal (Vc d) .f32) (p : Fin n) (q : Fin d) :
    maximumf
        (addf (FloatOps.dotGeneral dd none .single h w) (broadcastInDim (Mat n d) ![0, 1] hb2 (broadcastInDim (Mat 1 d) ![1] hb1 b)))
        (broadcastInDim (Mat n d) ![] hb0 (constant (F := Ideal) Sc .f32 0x00000000#32)) (ix2 p q)
      = linearAt h w (fun q => b (ix1 q)) p q := by
  rw [maximumf_apply, addf_apply, broadcastInDim_scalar_apply, bcast_1n_rn_apply, bcast_n_1n_apply,
    PlainDot.dotGeneral_apply hd]
  rfl

/-- The reference's read-out: the product, and the bias laid as a row and spread over the rows. -/
theorem host_affine_apply (dd : DotDims (Mat n k) (Mat k d) (Mat n d)) (hd : IsPlain dd)
    (hb1 : (Vc d).BroadcastsInDim (Mat 1 d) (![1] : Fin 1 → Fin 2)) (hb2 : (Mat 1 d).BroadcastsInDim (Mat n d) (![0, 1] : Fin 2 → Fin 2))
    (h : FVec Ideal (Mat n k) .f32) (w : FVec Ideal (Mat k d) .f32) (b : FVec Ideal (Vc d) .f32) (p : Fin n) (q : Fin d) :
    addf (FloatOps.dotGeneral dd none .single h w) (broadcastInDim (Mat n d) ![0, 1] hb2 (broadcastInDim (Mat 1 d) ![1] hb1 b)) (ix2 p q)
      = affineAt h w (fun q => b (ix1 q)) p q := by
  rw [addf_apply, bcast_1n_rn_apply, bcast_n_1n_apply, PlainDot.dotGeneral_apply hd]
  rfl

end Cert.Layers

end
-- ==== Proof.Region3.lean ====
/-
  The read-out's array after its region.

  The region runs the read-out body once, on whole arrays: the pooled features, the weight matrix, the bias row.
  The one block is the whole output, so the array ends holding `Layers.affine` of the arrays as the region finds them.
-/
import proofs.«111446_j34531537060254_1_alg».proof.Proof.Gen.KernelIdeal.Frame
import proofs.«111446_j34531537060254_1_alg».proof.Proof.Layers
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product contracts the left operand's columns with the right operand's rows. -/
theorem plain : PlainDot.IsPlain dot_S32x128_S128x3_S32x3_1_0_0_1_n_n := ⟨rfl, rfl, rfl, rfl, rfl, rfl⟩

/-- The body's result at an entry, from the arrays it loads. -/
theorem pay_apply (v0 : Vec Ideal S32x128 .f32) (v3 : Vec Ideal S128x3 .bf16) (v5 : Vec Ideal S1x3 .f32)
    (p : Fin 32) (q : Fin 3) :
    k3_pay1 v0 v3 v5 (ix2 p q) = Layers.affineAt v0 v3 (fun q => v5 (ix2 (0 : Fin 1) q)) p q := by
  unfold k3_pay1
  simp only [shapeCast_self]
  exact Layers.kernel_affine_apply _ plain _ _ v0 v3 v5 p q

/-- Every window's one block sits at the origin. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The pooled features' block is the whole matrix. -/
theorem read0 (c : Dev nD) (t : Fin cfg3.N) (p : Fin 32) (κ : Fin 128) :
    iblk3 V c 0 t (ix2 p κ) = V c main_v68 (ix2 p κ) := by
  show V c main_v68 (((cfg3.win 0).blk t).view.emb (ix2 p κ)) = _
  refine congrArg (V c main_v68) (funext fun a => Fin.ext ?_)
  obtain ⟨e0, e1, -⟩ := idx_facts t
  match a with
  | ⟨0, _⟩ => show win3_0.index t (0 : Fin 2) * 32 + 1 * p.val = p.val; rw [e0]; omega
  | ⟨1, _⟩ => show win3_0.index t (1 : Fin 2) * 128 + 1 * κ.val = κ.val; rw [e1]; omega

/-- The weight window's block is the whole matrix. -/
theorem read1 (c : Dev nD) (t : Fin cfg3.N) (κ : Fin 128) (q : Fin 3) :
    iblk3 V c 1 t (ix2 κ q) = V c main_v70 (ix2 κ q) := by
  show V c main_v70 (((cfg3.win 1).blk t).view.emb (ix2 κ q)) = _
  refine congrArg (V c main_v70) (funext fun a => Fin.ext ?_)
  obtain ⟨-, -, e0, e1, -⟩ := idx_facts t
  match a with
  | ⟨0, _⟩ => show win3_1.index t (0 : Fin 2) * 128 + 1 * κ.val = κ.val; rw [e0]; omega
  | ⟨1, _⟩ => show win3_1.index t (1 : Fin 2) * 3 + 1 * q.val = q.val; rw [e1]; omega

/-- The bias window's block is the whole row. -/
theorem read2 (c : Dev nD) (t : Fin cfg3.N) (q : Fin 3) :
    iblk3 V c 2 t (ix2 (0 : Fin 1) q) = V c main_v71 (ix2 (0 : Fin 1) q) := by
  show V c main_v71 (((cfg3.win 2).blk t).view.emb (ix2 (0 : Fin 1) q)) = _
  refine congrArg (V c main_v71) (funext fun a => Fin.ext ?_)
  obtain ⟨-, -, -, -, e0, e1, -⟩ := idx_facts t
  match a with
  | ⟨0, _⟩ => show win3_2.index t (0 : Fin 2) * 1 + 1 * 0 = 0; rw [e0]
  | ⟨1, _⟩ => show win3_2.index t (1 : Fin 2) * 3 + 1 * q.val = q.val; rw [e1]; omega

/-- Entry `(p, q)` of the output's one block is entry `(p, q)` of the array. -/
theorem emb_out (t : Fin cfg3.N) (p : Fin 32) (q : Fin 3) :
    ((cfg3.win 3).blk t).view.emb (ix2 p q) = ix2 p q := by
  refine funext fun a => Fin.ext ?_
  obtain ⟨-, -, -, -, -, -, e0, e1⟩ := idx_facts t
  match a with
  | ⟨0, _⟩ => show win3_3.index t (0 : Fin 2) * 32 + 1 * p.val = p.val; rw [e0]; omega
  | ⟨1, _⟩ => show win3_3.index t (1 : Fin 2) * 3 + 1 * q.val = q.val; rw [e1]; omega

/-- The matrix the region leaves: the read-out of the arrays as the region finds them. -/
abbrev result (c : Dev nD) : S32x3.Idx → EReal :=
  Layers.affine (V c main_v68) (V c main_v70) (fun q => V c main_v71 (ix2 (0 : Fin 1) q))

/-- What the one point writes back is that matrix, read through the whole-array block. -/
theorem flushed_eq (c : Dev nD) (t : Fin cfg3.N) :
    (dat3 V c).flushed 3 t = ((cfg3.win 3).blk t).view.read (Elt Ideal) (result V c) := by
  show (cfg3.win 3).cut (grid3.coords t) ((dat3 V c).after 3 t) = _
  rw [after3_3]
  unfold out3_3
  rw [View.canon_unit_zero hz]
  simp only [View.ld_unit_zero (S := S32x128) hz, View.ld_unit_zero (S := S128x3) hz, View.ld_unit_zero (S := S1x3) hz]
  refine funext fun (j : S32x3.Idx) => ?_
  obtain ⟨p, q, rfl⟩ : ∃ (p : Fin 32) (q : Fin 3), j = ix2 p q := ⟨j 0, j 1, eq_ix2 j⟩
  refine (pay_apply (iblk3 V c 0 t) (iblk3 V c 1 t) (iblk3 V c 2 t) p q).trans ?_
  show _ = result V c (((cfg3.win 3).blk t).view.emb (ix2 p q))
  rw [emb_out t p q]
  exact Layers.affineAt_congr _ _ _ _ _ _ p p q (fun κ => read0 V c t p κ) (fun κ => read1 V c t κ q) (read2 V c t q)

/-- An index of the array is in the point's block iff each coordinate is in the block's range on its axis. -/
theorem mem_blk (t : Fin cfg3.N) (i : S32x3.Idx) :
    i ∈ ((cfg3.win 3).blk t).view.set ↔ ∀ a : Fin 2, win3_3.index t a * S32x3.size a ≤ (i a).val ∧ (i a).val < win3_3.index t a * S32x3.size a + S32x3.size a := by
  show i ∈ ((View.whole main_v72).slice (win3_3.rect t)).set ↔ _
  rw [View.set_slice_whole, Rect.mem_set_unit]
  exact Iff.rfl

/-- Every entry of the array is in the one block. -/
theorem cover (i : S32x3.Idx) : ∃ t : Fin cfg3.N, (cfg3.win 3).flush t = true ∧ i ∈ ((cfg3.win 3).blk t).view.set := by
  have hi0 : (i 0).val < 32 := (i 0).isLt
  have hi1 : (i 1).val < 3 := (i 1).isLt
  refine ⟨t3_0, flush3_3 _, ?_⟩
  rw [mem_blk]
  obtain ⟨-, -, -, -, -, -, e0, e1⟩ := idx_facts t3_0
  intro a
  match a with
  | ⟨0, _⟩ =>
    show win3_3.index _ (0 : Fin 2) * 32 ≤ (i 0).val ∧ (i 0).val < win3_3.index _ (0 : Fin 2) * 32 + 32
    rw [e0]; omega
  | ⟨1, _⟩ =>
    show win3_3.index _ (1 : Fin 2) * 3 ≤ (i 1).val ∧ (i 1).val < win3_3.index _ (1 : Fin 2) * 3 + 3
    rw [e1]; omega

/-- THE ARRAY after the region: the read-out of the arrays as the region finds them. -/
theorem final (c : Dev nD) : (dat3 V c).arrAt 3 cfg3.N = result V c :=
  (dat3 V c).arrAt_eq_of_cover 3 (result V c) (fun t _ => flushed_eq V c t) cover

end Cert.KernelIdeal.Region3

end
-- ==== Proof.Region2.lean ====
/-
  The second neighbourhood layer's array after its region.

  The region runs the neighbourhood body at ten grid points; point `t` reads rows `5000 t … 5000 t + 4999` of the
  aggregate and of the plain layer's output, the two whole weight matrices and the whole bias row, and writes the same rows
  of the output. An entry of the body's result depends on one row of each activation block, so block `t` of the
  output is block `t` of ONE matrix, `Layers.combine` of the arrays as the region finds them; the ten blocks tile
  the output, so the array ends holding that matrix.
-/
import proofs.«111446_j34531537060254_1_alg».proof.Proof.Gen.KernelIdeal.Frame
import proofs.«111446_j34531537060254_1_alg».proof.Proof.Layers
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's two products contract the left operand's columns with the right operand's rows. -/
theorem plain : PlainDot.IsPlain dot_S5000x128_S128x128_S5000x128_1_0_0_1_n_n := ⟨rfl, rfl, rfl, rfl, rfl, rfl⟩

/-- The body's result at an entry, from the blocks it loads. -/
theorem pay_apply (v0 v3 : Vec Ideal S5000x128 .f32) (v5 v7 : Vec Ideal S128x128 .bf16) (v9 : Vec Ideal S1x128 .f32)
    (p : Fin 5000) (q : Fin 128) :
    k2_pay1 v0 v3 v5 v7 v9 (ix2 p q) = Layers.combineAt v0 v3 v5 v7 (fun q => v9 (ix2 (0 : Fin 1) q)) p q := by
  unfold k2_pay1
  simp only [shapeCast_self]
  exact Layers.kernel_combine_apply _ plain _ _ v0 v3 v5 v7 v9 p q

/-- Where each window's block sits at point `t`: the row blocks move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of block `t`, as a row of the array. -/
def row (t : Fin cfg2.N) (p : Fin 5000) : Fin 50000 :=
  ⟨t.val * 5000 + p.val, by
    have ht : t.val < cfg2.N := t.isLt
    have hN : cfg2.N = 10 := N_2
    have hp := p.isLt
    omega⟩

/-- The aggregate's block at point `t` is rows of the aggregate. -/
theorem read0 (c : Dev nD) (t : Fin cfg2.N) (p : Fin 5000) (κ : Fin 128) :
    iblk2 V c 0 t (ix2 p κ) = V c main_v50 (ix2 (row t p) κ) := by
  show V c main_v50 (((cfg2.win 0).blk t).view.emb (ix2 p κ)) = _
  refine congrArg (V c main_v50) (funext fun a => Fin.ext ?_)
  obtain ⟨e0, e1, -⟩ := idx_facts t
  match a with
  | ⟨0, _⟩ => show win2_0.index t (0 : Fin 2) * 5000 + 1 * p.val = t.val * 5000 + p.val; rw [e0]; omega
  | ⟨1, _⟩ => show win2_0.index t (1 : Fin 2) * 128 + 1 * κ.val = κ.val; rw [e1]; omega

/-- The plain layer's output' block at point `t` is rows of the features. -/
theorem read1 (c : Dev nD) (t : Fin cfg2.N) (p : Fin 5000) (κ : Fin 128) :
    iblk2 V c 1 t (ix2 p κ) = V c main_v32 (ix2 (row t p) κ) := by
  show V c main_v32 (((cfg2.win 1).blk t).view.emb (ix2 p κ)) = _
  refine congrArg (V c main_v32) (funext fun a => Fin.ext ?_)
  obtain ⟨-, -, e0, e1, -⟩ := idx_facts t
  match a with
  | ⟨0, _⟩ => show win2_1.index t (0 : Fin 2) * 5000 + 1 * p.val = t.val * 5000 + p.val; rw [e0]; omega
  | ⟨1, _⟩ => show win2_1.index t (1 : Fin 2) * 128 + 1 * κ.val = κ.val; rw [e1]; omega

/-- The first weight window's block is the whole matrix. -/
theorem read2 (c : Dev nD) (t : Fin cfg2.N) (κ : Fin 128) (q : Fin 128) :
    iblk2 V c 2 t (ix2 κ q) = V c main_v52 (ix2 κ q) := by
  show V c main_v52 (((cfg2.win 2).blk t).view.emb (ix2 κ q)) = _
  refine congrArg (V c main_v52) (funext fun a => Fin.ext ?_)
  obtain ⟨-, -, -, -, e0, e1, -⟩ := idx_facts t
  match a with
  | ⟨0, _⟩ => show win2_2.index t (0 : Fin 2) * 128 + 1 * κ.val = κ.val; rw [e0]; omega
  | ⟨1, _⟩ => show win2_2.index t (1 : Fin 2) * 128 + 1 * q.val = q.val; rw [e1]; omega

/-- The bias window's block is the whole row. -/
theorem read3 (c : Dev nD) (t : Fin cfg2.N) (q : Fin 128) :
    iblk2 V c 3 t (ix2 (0 : Fin 1) q) = V c main_v55 (ix2 (0 : Fin 1) q) := by
  show V c main_v55 (((cfg2.win 3).blk t).view.emb (ix2 (0 : Fin 1) q)) = _
  refine congrArg (V c main_v55) (funext fun a => Fin.ext ?_)
  obtain ⟨-, -, -, -, -, -, e0, e1, -⟩ := idx_facts t
  match a with
  | ⟨0, _⟩ => show win2_3.index t (0 : Fin 2) * 1 + 1 * 0 = 0; rw [e0]
  | ⟨1, _⟩ => show win2_3.index t (1 : Fin 2) * 128 + 1 * q.val = q.val; rw [e1]; omega

/-- The second weight window's block is the whole matrix. -/
theorem read4 (c : Dev nD) (t : Fin cfg2.N) (κ : Fin 128) (q : Fin 128) :
    iblk2 V c 4 t (ix2 κ q) = V c main_v54 (ix2 κ q) := by
  show V c main_v54 (((cfg2.win 4).blk t).view.emb (ix2 κ q)) = _
  refine congrArg (V c main_v54) (funext fun a => Fin.ext ?_)
  obtain ⟨-, -, -, -, -, -, -, -, e0, e1, -⟩ := idx_facts t
  match a with
  | ⟨0, _⟩ => show win2_4.index t (0 : Fin 2) * 128 + 1 * κ.val = κ.val; rw [e0]; omega
  | ⟨1, _⟩ => show win2_4.index t (1 : Fin 2) * 128 + 1 * q.val = q.val; rw [e1]; omega

/-- Entry `(p, q)` of the output's block at point `t` is entry `(row t p, q)` of the array. -/
theorem emb_out (t : Fin cfg2.N) (p : Fin 5000) (q : Fin 128) :
    ((cfg2.win 5).blk t).view.emb (ix2 p q) = ix2 (row t p) q := by
  refine funext fun a => Fin.ext ?_
  obtain ⟨-, -, -, -, -, -, -, -, -, -, e0, e1⟩ := idx_facts t
  match a with
  | ⟨0, _⟩ => show win2_5.index t (0 : Fin 2) * 5000 + 1 * p.val = t.val * 5000 + p.val; rw [e0]; omega
  | ⟨1, _⟩ => show win2_5.index t (1 : Fin 2) * 128 + 1 * q.val = q.val; rw [e1]; omega

/-- The matrix the region leaves: the neighbourhood layer of the arrays as the region finds them. -/
abbrev result (c : Dev nD) : S50000x128.Idx → EReal :=
  Layers.combine (V c main_v50) (V c main_v32) (V c main_v52) (V c main_v54) (fun q => V c main_v55 (ix2 (0 : Fin 1) q))

/-- What point `t` writes back is block `t` of that matrix. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  refine (pay_apply (iblk2 V c 0 t) (iblk2 V c 1 t) (iblk2 V c 2 t) (iblk2 V c 4 t) (iblk2 V c 3 t) p q).trans ?_
  show _ = result V c (((cfg2.win 5).blk t).view.emb (ix2 p q))
  rw [emb_out t p q]
  exact Layers.combineAt_congr _ _ _ _ _ _ _ _ _ _ p (row t p) q (fun κ => read0 V c t p κ) (fun κ => read1 V c t p κ)
    (fun κ => read2 V c t κ q) (fun κ => read4 V c t κ q) (read3 V c t q)

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v56).slice (win2_5.rect t)).set ↔ _
  rw [View.set_slice_whole, Rect.mem_set_unit]
  exact Iff.rfl

/-- Every entry of the array is in the block of the point its row falls in. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by omega⟩, flush2_5 _, ?_⟩
  rw [mem_blk]
  obtain ⟨-, -, -, -, -, -, -, -, -, -, e0, e1⟩ := idx_facts ⟨(i 0).val / 5000, by omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e1]; omega

/-- THE ARRAY after the region: the neighbourhood layer of the arrays as the region finds them. -/
theorem final (c : Dev nD) : (dat2 V c).arrAt 5 cfg2.N = result V c :=
  (dat2 V c).arrAt_eq_of_cover 5 (result V c) (fun t _ => flushed_eq V c t) cover

end Cert.KernelIdeal.Region2

end
-- ==== Proof.Region1.lean ====
/-
  The plain layer's array after its region.

  The region runs the plain body at ten grid points; point `t` reads rows `5000 t … 5000 t + 4999` of the first
  layer's output, the whole weight matrix and the whole bias row, and writes the same rows of the output. Block `t`
  of the output is block `t` of ONE matrix, `Layers.linear` of the arrays as the region finds them, and the ten
  blocks tile the output.
-/
import proofs.«111446_j34531537060254_1_alg».proof.Proof.Gen.KernelIdeal.Frame
import proofs.«111446_j34531537060254_1_alg».proof.Proof.Layers
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product contracts the left operand's columns with the right operand's rows. -/
theorem plain : PlainDot.IsPlain dot_S5000x128_S128x128_S5000x128_1_0_0_1_n_n := ⟨rfl, rfl, rfl, rfl, rfl, rfl⟩

/-- The body's result at an entry, from the blocks it loads. -/
theorem pay_apply (v0 : Vec Ideal S5000x128 .f32) (v3 : Vec Ideal S128x128 .bf16) (v5 : Vec Ideal S1x128 .f32)
    (p : Fin 5000) (q : Fin 128) :
    k1_pay1 v0 v3 v5 (ix2 p q) = Layers.linearAt v0 v3 (fun q => v5 (ix2 (0 : Fin 1) q)) p q := by
  unfold k1_pay1
  simp only [shapeCast_self]
  exact Layers.kernel_linear_apply _ plain _ _ v0 v3 v5 p q

/-- Where each window's block sits at point `t`: the row blocks move with the point, the weight and the bias stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t`, as a row of the array. -/
def row (t : Fin cfg1.N) (p : Fin 5000) : Fin 50000 :=
  ⟨t.val * 5000 + p.val, by
    have ht : t.val < cfg1.N := t.isLt
    have hN : cfg1.N = 10 := N_1
    have hp := p.isLt
    omega⟩

/-- The activations' block at point `t` is rows of the activations. -/
theorem read0 (c : Dev nD) (t : Fin cfg1.N) (p : Fin 5000) (κ : Fin 128) :
    iblk1 V c 0 t (ix2 p κ) = V c main_v28 (ix2 (row t p) κ) := by
  show V c main_v28 (((cfg1.win 0).blk t).view.emb (ix2 p κ)) = _
  refine congrArg (V c main_v28) (funext fun a => Fin.ext ?_)
  obtain ⟨e0, e1, -⟩ := idx_facts t
  match a with
  | ⟨0, _⟩ => show win1_0.index t (0 : Fin 2) * 5000 + 1 * p.val = t.val * 5000 + p.val; rw [e0]; omega
  | ⟨1, _⟩ => show win1_0.index t (1 : Fin 2) * 128 + 1 * κ.val = κ.val; rw [e1]; omega

/-- The weight window's block is the whole matrix. -/
theorem read1 (c : Dev nD) (t : Fin cfg1.N) (κ : Fin 128) (q : Fin 128) :
    iblk1 V c 1 t (ix2 κ q) = V c main_v30 (ix2 κ q) := by
  show V c main_v30 (((cfg1.win 1).blk t).view.emb (ix2 κ q)) = _
  refine congrArg (V c main_v30) (funext fun a => Fin.ext ?_)
  obtain ⟨-, -, e0, e1, -⟩ := idx_facts t
  match a with
  | ⟨0, _⟩ => show win1_1.index t (0 : Fin 2) * 128 + 1 * κ.val = κ.val; rw [e0]; omega
  | ⟨1, _⟩ => show win1_1.index t (1 : Fin 2) * 128 + 1 * q.val = q.val; rw [e1]; omega

/-- The bias window's block is the whole row. -/
theorem read2 (c : Dev nD) (t : Fin cfg1.N) (q : Fin 128) :
    iblk1 V c 2 t (ix2 (0 : Fin 1) q) = V c main_v31 (ix2 (0 : Fin 1) q) := by
  show V c main_v31 (((cfg1.win 2).blk t).view.emb (ix2 (0 : Fin 1) q)) = _
  refine congrArg (V c main_v31) (funext fun a => Fin.ext ?_)
  obtain ⟨-, -, -, -, e0, e1, -⟩ := idx_facts t
  match a with
  | ⟨0, _⟩ => show win1_2.index t (0 : Fin 2) * 1 + 1 * 0 = 0; rw [e0]
  | ⟨1, _⟩ => show win1_2.index t (1 : Fin 2) * 128 + 1 * q.val = q.val; rw [e1]; omega

/-- Entry `(p, q)` of the output's block at point `t` is entry `(row t p, q)` of the array. -/
theorem emb_out (t : Fin cfg1.N) (p : Fin 5000) (q : Fin 128) :
    ((cfg1.win 3).blk t).view.emb (ix2 p q) = ix2 (row t p) q := by
  refine funext fun a => Fin.ext ?_
  obtain ⟨-, -, -, -, -, -, e0, e1⟩ := idx_facts t
  match a with
  | ⟨0, _⟩ => show win1_3.index t (0 : Fin 2) * 5000 + 1 * p.val = t.val * 5000 + p.val; rw [e0]; omega
  | ⟨1, _⟩ => show win1_3.index t (1 : Fin 2) * 128 + 1 * q.val = q.val; rw [e1]; omega

/-- The matrix the region leaves: the plain layer of the arrays as the region finds them. -/
abbrev result (c : Dev nD) : S50000x128.Idx → EReal :=
  Layers.linear (V c main_v28) (V c main_v30) (fun q => V c main_v31 (ix2 (0 : Fin 1) q))

/-- What point `t` writes back is block `t` of that matrix. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) p q).trans ?_
  show _ = result V c (((cfg1.win 3).blk t).view.emb (ix2 p q))
  rw [emb_out t p q]
  exact Layers.linearAt_congr _ _ _ _ _ _ p (row t p) q (fun κ => read0 V c t p κ) (fun κ => read1 V c t κ q) (read2 V c t q)

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v32).slice (win1_3.rect t)).set ↔ _
  rw [View.set_slice_whole, Rect.mem_set_unit]
  exact Iff.rfl

/-- Every entry of the array is in the block of the point its row falls in. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by omega⟩, flush1_3 _, ?_⟩
  rw [mem_blk]
  obtain ⟨-, -, -, -, -, -, e0, e1⟩ := idx_facts ⟨(i 0).val / 5000, by omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e1]; omega

/-- THE ARRAY after the region: the plain layer of the arrays as the region finds them. -/
theorem final (c : Dev nD) : (dat1 V c).arrAt 3 cfg1.N = result V c :=
  (dat1 V c).arrAt_eq_of_cover 3 (result V c) (fun t _ => flushed_eq V c t) cover

end Cert.KernelIdeal.Region1

end
-- ==== Proof.Region0.lean ====
/-
  The first neighbourhood layer's array after its region.

  The region runs the neighbourhood body at ten grid points; point `t` reads rows `5000 t … 5000 t + 4999` of the
  aggregate and of the node features, the two whole weight matrices and the whole bias row, and writes the same rows
  of the output. An entry of the body's result depends on one row of each activation block, so block `t` of the
  output is block `t` of ONE matrix, `Layers.combine` of the arrays as the region finds them; the ten blocks tile
  the output, so the array ends holding that matrix.
-/
import proofs.«111446_j34531537060254_1_alg».proof.Proof.Gen.KernelIdeal.Frame
import proofs.«111446_j34531537060254_1_alg».proof.Proof.Layers
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's two products contract the left operand's columns with the right operand's rows. -/
theorem plain : PlainDot.IsPlain dot_S5000x128_S128x128_S5000x128_1_0_0_1_n_n := ⟨rfl, rfl, rfl, rfl, rfl, rfl⟩

/-- The body's result at an entry, from the blocks it loads. -/
theorem pay_apply (v0 v3 : Vec Ideal S5000x128 .f32) (v5 v7 : Vec Ideal S128x128 .bf16) (v9 : Vec Ideal S1x128 .f32)
    (p : Fin 5000) (q : Fin 128) :
    k0_pay1 v0 v3 v5 v7 v9 (ix2 p q) = Layers.combineAt v0 v3 v5 v7 (fun q => v9 (ix2 (0 : Fin 1) q)) p q := by
  unfold k0_pay1
  simp only [shapeCast_self]
  exact Layers.kernel_combine_apply _ plain _ _ v0 v3 v5 v7 v9 p q

/-- Where each window's block sits at point `t`: the row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t`, as a row of the array. -/
def row (t : Fin cfg0.N) (p : Fin 5000) : Fin 50000 :=
  ⟨t.val * 5000 + p.val, by
    have ht : t.val < cfg0.N := t.isLt
    have hN : cfg0.N = 10 := N_0
    have hp := p.isLt
    omega⟩

/-- The aggregate's block at point `t` is rows of the aggregate. -/
theorem read0 (c : Dev nD) (t : Fin cfg0.N) (p : Fin 5000) (κ : Fin 128) :
    iblk0 V c 0 t (ix2 p κ) = V c main_v22 (ix2 (row t p) κ) := by
  show V c main_v22 (((cfg0.win 0).blk t).view.emb (ix2 p κ)) = _
  refine congrArg (V c main_v22) (funext fun a => Fin.ext ?_)
  obtain ⟨e0, e1, -⟩ := idx_facts t
  match a with
  | ⟨0, _⟩ => show win0_0.index t (0 : Fin 2) * 5000 + 1 * p.val = t.val * 5000 + p.val; rw [e0]; omega
  | ⟨1, _⟩ => show win0_0.index t (1 : Fin 2) * 128 + 1 * κ.val = κ.val; rw [e1]; omega

/-- The node features' block at point `t` is rows of the features. -/
theorem read1 (c : Dev nD) (t : Fin cfg0.N) (p : Fin 5000) (κ : Fin 128) :
    iblk0 V c 1 t (ix2 p κ) = V c main_arg0 (ix2 (row t p) κ) := by
  show V c main_arg0 (((cfg0.win 1).blk t).view.emb (ix2 p κ)) = _
  refine congrArg (V c main_arg0) (funext fun a => Fin.ext ?_)
  obtain ⟨-, -, e0, e1, -⟩ := idx_facts t
  match a with
  | ⟨0, _⟩ => show win0_1.index t (0 : Fin 2) * 5000 + 1 * p.val = t.val * 5000 + p.val; rw [e0]; omega
  | ⟨1, _⟩ => show win0_1.index t (1 : Fin 2) * 128 + 1 * κ.val = κ.val; rw [e1]; omega

/-- The first weight window's block is the whole matrix. -/
theorem read2 (c : Dev nD) (t : Fin cfg0.N) (κ : Fin 128) (q : Fin 128) :
    iblk0 V c 2 t (ix2 κ q) = V c main_v24 (ix2 κ q) := by
  show V c main_v24 (((cfg0.win 2).blk t).view.emb (ix2 κ q)) = _
  refine congrArg (V c main_v24) (funext fun a => Fin.ext ?_)
  obtain ⟨-, -, -, -, e0, e1, -⟩ := idx_facts t
  match a with
  | ⟨0, _⟩ => show win0_2.index t (0 : Fin 2) * 128 + 1 * κ.val = κ.val; rw [e0]; omega
  | ⟨1, _⟩ => show win0_2.index t (1 : Fin 2) * 128 + 1 * q.val = q.val; rw [e1]; omega

/-- The bias window's block is the whole row. -/
theorem read3 (c : Dev nD) (t : Fin cfg0.N) (q : Fin 128) :
    iblk0 V c 3 t (ix2 (0 : Fin 1) q) = V c main_v27 (ix2 (0 : Fin 1) q) := by
  show V c main_v27 (((cfg0.win 3).blk t).view.emb (ix2 (0 : Fin 1) q)) = _
  refine congrArg (V c main_v27) (funext fun a => Fin.ext ?_)
  obtain ⟨-, -, -, -, -, -, e0, e1, -⟩ := idx_facts t
  match a with
  | ⟨0, _⟩ => show win0_3.index t (0 : Fin 2) * 1 + 1 * 0 = 0; rw [e0]
  | ⟨1, _⟩ => show win0_3.index t (1 : Fin 2) * 128 + 1 * q.val = q.val; rw [e1]; omega

/-- The second weight window's block is the whole matrix. -/
theorem read4 (c : Dev nD) (t : Fin cfg0.N) (κ : Fin 128) (q : Fin 128) :
    iblk0 V c 4 t (ix2 κ q) = V c main_v26 (ix2 κ q) := by
  show V c main_v26 (((cfg0.win 4).blk t).view.emb (ix2 κ q)) = _
  refine congrArg (V c main_v26) (funext fun a => Fin.ext ?_)
  obtain ⟨-, -, -, -, -, -, -, -, e0, e1, -⟩ := idx_facts t
  match a with
  | ⟨0, _⟩ => show win0_4.index t (0 : Fin 2) * 128 + 1 * κ.val = κ.val; rw [e0]; omega
  | ⟨1, _⟩ => show win0_4.index t (1 : Fin 2) * 128 + 1 * q.val = q.val; rw [e1]; omega

/-- Entry `(p, q)` of the output's block at point `t` is entry `(row t p, q)` of the array. -/
theorem emb_out (t : Fin cfg0.N) (p : Fin 5000) (q : Fin 128) :
    ((cfg0.win 5).blk t).view.emb (ix2 p q) = ix2 (row t p) q := by
  refine funext fun a => Fin.ext ?_
  obtain ⟨-, -, -, -, -, -, -, -, -, -, e0, e1⟩ := idx_facts t
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- The matrix the region leaves: the neighbourhood layer of the arrays as the region finds them. -/
abbrev result (c : Dev nD) : S50000x128.Idx → EReal :=
  Layers.combine (V c main_v22) (V c main_arg0) (V c main_v24) (V c main_v26) (fun q => V c main_v27 (ix2 (0 : Fin 1) q))

/-- What point `t` writes back is block `t` of that matrix. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) (iblk0 V c 4 t) (iblk0 V c 3 t) p q).trans ?_
  show _ = result V c (((cfg0.win 5).blk t).view.emb (ix2 p q))
  rw [emb_out t p q]
  exact Layers.combineAt_congr _ _ _ _ _ _ _ _ _ _ p (row t p) q (fun κ => read0 V c t p κ) (fun κ => read1 V c t p κ)
    (fun κ => read2 V c t κ q) (fun κ => read4 V c t κ q) (read3 V c t q)

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every entry of the array is in the block of the point its row falls in. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by omega⟩, flush0_5 _, ?_⟩
  rw [mem_blk]
  obtain ⟨-, -, -, -, -, -, -, -, -, -, e0, e1⟩ := idx_facts ⟨(i 0).val / 5000, by omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- THE ARRAY after the region: the neighbourhood layer of the arrays as the region finds them. -/
theorem final (c : Dev nD) : (dat0 V c).arrAt 5 cfg0.N = result V c :=
  (dat0 V c).arrAt_eq_of_cover 5 (result V c) (fun t _ => flushed_eq V c t) cover

end Cert.KernelIdeal.Region0

end
-- ==== Proof.RefLayers.lean ====
/-
  The reference's dense layers, each read as one matrix of its inputs.

  Between its gathers and scatters the reference applies three kinds of dense layer: twice the neighbourhood layer
  (the aggregate times a transposed weight, plus the bias, plus the features times another transposed weight, clamped
  below at zero), once the plain layer, and the read-out. Entry by entry each is the closed form of `Layers`, with the
  stage that feeds it kept as the generated stage function of the arguments.
-/
import proofs.«111446_j34531537060254_1_alg».proof.Proof.Gen.ReferenceIdeal.Read
import proofs.«111446_j34531537060254_1_alg».proof.Proof.Layers

noncomputable section

namespace Cert.ReferenceIdeal.Stages

open Cert.ReferenceIdeal Cert.ReferenceIdeal.Read
open Idealize.ShloMosaic Idealize.ShloMosaic.ValueIdx

/-- The products over all nodes contract the left operand's columns with the right operand's rows. -/
theorem plainN : PlainDot.IsPlain dot_S50000x128_S128x128_S50000x128_1_0_0_1_n_n := ⟨rfl, rfl, rfl, rfl, rfl, rfl⟩
/-- So does the read-out's product. -/
theorem plainG : PlainDot.IsPlain dot_S32x128_S128x3_S32x3_1_0_0_1_n_n := ⟨rfl, rfl, rfl, rfl, rfl, rfl⟩

/-- The first neighbourhood layer. -/
theorem v31_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x11 : (⟨S2x600000, .i32⟩ : BufTy).Contents (Elt Ideal)) :
    val_main_v31 (F := Ideal) x0 x1 x2 x3 x11
      = Layers.combine (val_main_v22 (F := Ideal) x0 x11) x0 (val_main_v23 (F := Ideal) x1) (val_main_v28 (F := Ideal) x3) (fun q => x2 (ix1 q)) := by
  funext i
  obtain ⟨p, q, rfl⟩ : ∃ (p : Fin 50000) (q : Fin 128), i = ix2 p q := ⟨i 0, i 1, eq_ix2 i⟩
  unfold val_main_v31 val_main_v30 val_main_v27 val_main_v29 val_main_v24 val_main_v26 val_main_v25 val_main_call0_v0 val_main_call0_cst
  exact Layers.host_combine_apply _ plainN _ _ _ (val_main_v22 (F := Ideal) x0 x11) x0 (val_main_v23 (F := Ideal) x1) (val_main_v28 (F := Ideal) x3) x2 p q

/-- The plain layer. -/
theorem v37_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x11 : (⟨S2x600000, .i32⟩ : BufTy).Contents (Elt Ideal)) :
    val_main_v37 (F := Ideal) x0 x1 x2 x3 x4 x5 x11
      = Layers.linear (val_main_v31 (F := Ideal) x0 x1 x2 x3 x11) (val_main_v32 (F := Ideal) x4) (fun q => x5 (ix1 q)) := by
  funext i
  obtain ⟨p, q, rfl⟩ : ∃ (p : Fin 50000) (q : Fin 128), i = ix2 p q := ⟨i 0, i 1, eq_ix2 i⟩
  unfold val_main_v37 val_main_v36 val_main_v33 val_main_v35 val_main_v34 val_main_call1_v0 val_main_call1_cst
  exact Layers.host_linear_apply _ plainN _ _ _ (val_main_v31 (F := Ideal) x0 x1 x2 x3 x11) (val_main_v32 (F := Ideal) x4) x5 p q

/-- The second neighbourhood layer. -/
theorem v65_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x11 : (⟨S2x600000, .i32⟩ : BufTy).Contents (Elt Ideal)) :
    val_main_v65 (F := Ideal) x0 x1 x2 x3 x4 x5 x6 x7 x8 x11
      = Layers.combine (val_main_v56 (F := Ideal) x0 x1 x2 x3 x4 x5 x11) (val_main_v37 (F := Ideal) x0 x1 x2 x3 x4 x5 x11)
          (val_main_v57 (F := Ideal) x6) (val_main_v62 (F := Ideal) x8) (fun q => x7 (ix1 q)) := by
  funext i
  obtain ⟨p, q, rfl⟩ : ∃ (p : Fin 50000) (q : Fin 128), i = ix2 p q := ⟨i 0, i 1, eq_ix2 i⟩
  unfold val_main_v65 val_main_v64 val_main_v61 val_main_v63 val_main_v58 val_main_v60 val_main_v59 val_main_call2_v0 val_main_call2_cst
  exact Layers.host_combine_apply _ plainN _ _ _ (val_main_v56 (F := Ideal) x0 x1 x2 x3 x4 x5 x11) (val_main_v37 (F := Ideal) x0 x1 x2 x3 x4 x5 x11)
    (val_main_v57 (F := Ideal) x6) (val_main_v62 (F := Ideal) x8) x7 p q

/-- The read-out. -/
theorem v82_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S3x128, .f32⟩ : BufTy).Contents (Elt Ideal)) (x10 : (⟨S3, .f32⟩ : BufTy).Contents (Elt Ideal)) (x11 : (⟨S2x600000, .i32⟩ : BufTy).Contents (Elt Ideal)) (x12 : (⟨S50000, .i32⟩ : BufTy).Contents (Elt Ideal)) :
    val_main_v82 (F := Ideal) x0 x1 x2 x3 x4 x5 x6 x7 x8 x9 x10 x11 x12
      = Layers.affine (val_main_v77 (F := Ideal) x0 x1 x2 x3 x4 x5 x6 x7 x8 x11 x12) (val_main_v78 (F := Ideal) x9) (fun q => x10 (ix1 q)) := by
  funext i
  obtain ⟨p, q, rfl⟩ : ∃ (p : Fin 32) (q : Fin 3), i = ix2 p q := ⟨i 0, i 1, eq_ix2 i⟩
  unfold val_main_v82 val_main_v79 val_main_v81 val_main_v80
  exact Layers.host_affine_apply _ plainG _ _ (val_main_v77 (F := Ideal) x0 x1 x2 x3 x4 x5 x6 x7 x8 x11 x12) (val_main_v78 (F := Ideal) x9) x10 p q

end Cert.ReferenceIdeal.Stages

end
-- ==== Proof.Chain1.lean ====
/-
  From the launch to the first neighbourhood layer's output.

  The first stretch of host operations computes, from the features and the edge list, the mean over each node's
  incoming edges (a gather of the source rows, a scatter-add onto the destination rows, the in-degree by a second
  scatter-add, a division by the degree clamped below at one), transposes two weight matrices and lays a bias as a row.
  These are the reference's own operations on the same arguments, so each array the first region reads is one of the
  reference's stages; the region then leaves the neighbourhood layer of them, which is the reference's first
  activation. The buffers later stretches read (the edge endpoints, the vector of ones, the later layers' arguments)
  keep their contents.
-/
import proofs.«111446_j34531537060254_1_alg».proof.Proof.Gen.KernelIdeal.Frame
import proofs.«111446_j34531537060254_1_alg».proof.Proof.Region0
import proofs.«111446_j34531537060254_1_alg».proof.Proof.RefLayers
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (m : (ℓ : Loc nD τ sig) → Buf (Elt Ideal) ℓ) (ρ : Dev nD → PrngReg)

/-- No operation of the named stretch writes the buffer: it keeps its contents across the stretch. -/
macro "keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## After the first stretch -/

set_option maxHeartbeats 8000000 in
/-- The mean of the features over incoming edges. -/
theorem W1_v22 (c : Dev nD) :
    W1 m ρ c (Proc.devRef .tc main_v22) = val_main_v22 (F := Ideal) (m ((c : Thread nD τ).loc main_arg0)) (m ((c : Thread nD τ).loc main_arg11)) := by
  show StableHlo.after hostOps0 (W0 m ρ c) (Proc.devRef .tc main_v22) = _
  after_results_simp
  unfold val_main_v22 val_main_v21 val_main_v20 val_main_v19 val_main_v18 val_main_cst_3 val_main_v17 val_main_v16 val_main_v15 val_main_cst_2
    val_main_v14 val_main_cst_1 val_main_v13 val_main_v12 val_main_v11 val_main_cst val_main_v10 val_main_v9 val_main_v8 val_main_v7 val_main_v6
    val_main_c_0 val_main_v5 val_main_v4 val_main_c val_main_v3 val_main_v2 val_main_v1 val_main_v0
  rfl

/-- The first weight matrix, transposed (its narrowing is the identity on extended reals). -/
theorem W1_v24 (c : Dev nD) : W1 m ρ c (Proc.devRef .tc main_v24) = val_main_v23 (F := Ideal) (m ((c : Thread nD τ).loc main_arg1)) := by
  show StableHlo.after hostOps0 (W0 m ρ c) (Proc.devRef .tc main_v24) = _
  after_results
  rfl

/-- The second weight matrix, transposed. -/
theorem W1_v26 (c : Dev nD) : W1 m ρ c (Proc.devRef .tc main_v26) = val_main_v28 (F := Ideal) (m ((c : Thread nD τ).loc main_arg3)) := by
  show StableHlo.after hostOps0 (W0 m ρ c) (Proc.devRef .tc main_v26) = _
  after_results
  rfl

/-- The bias, laid as a row. -/
theorem W1_v27 (c : Dev nD) :
    W1 m ρ c (Proc.devRef .tc main_v27) = shapeCast S1x128 (m ((c : Thread nD τ).loc main_arg2)) shapeCasts_S128_S1x128 := by
  show StableHlo.after hostOps0 (W0 m ρ c) (Proc.devRef .tc main_v27) = _
  after_results
  rfl

/-- The edges' source nodes. -/
theorem W1_v1 (c : Dev nD) : W1 m ρ c (Proc.devRef .tc main_v1) = val_main_v1 (F := Ideal) (m ((c : Thread nD τ).loc main_arg11)) := by
  show StableHlo.after hostOps0 (W0 m ρ c) (Proc.devRef .tc main_v1) = _
  after_results
  rfl

/-- The edges' destination nodes. -/
theorem W1_v3 (c : Dev nD) : W1 m ρ c (Proc.devRef .tc main_v3) = val_main_v3 (F := Ideal) (m ((c : Thread nD τ).loc main_arg11)) := by
  show StableHlo.after hostOps0 (W0 m ρ c) (Proc.devRef .tc main_v3) = _
  after_results
  rfl

/-- One per edge, as the reference's second in-degree count spells it. -/
theorem W1_v4 (c : Dev nD) : W1 m ρ c (Proc.devRef .tc main_v4) = val_main_v48 (F := Ideal) := by
  show StableHlo.after hostOps0 (W0 m ρ c) (Proc.devRef .tc main_v4) = _
  after_results
  rfl

/-! The arguments the stretch does not write. -/

theorem W1_arg0 (c : Dev nD) : W1 m ρ c (Proc.devRef .tc main_arg0) = (m ((c : Thread nD τ).loc main_arg0)) := by
  show StableHlo.after hostOps0 (W0 m ρ c) (Proc.devRef .tc main_arg0) = W0 m ρ c (Proc.devRef .tc main_arg0)
  keeps hostOps0
theorem W1_arg4 (c : Dev nD) : W1 m ρ c (Proc.devRef .tc main_arg4) = (m ((c : Thread nD τ).loc main_arg4)) := by
  show StableHlo.after hostOps0 (W0 m ρ c) (Proc.devRef .tc main_arg4) = W0 m ρ c (Proc.devRef .tc main_arg4)
  keeps hostOps0
theorem W1_arg5 (c : Dev nD) : W1 m ρ c (Proc.devRef .tc main_arg5) = (m ((c : Thread nD τ).loc main_arg5)) := by
  show StableHlo.after hostOps0 (W0 m ρ c) (Proc.devRef .tc main_arg5) = W0 m ρ c (Proc.devRef .tc main_arg5)
  keeps hostOps0
theorem W1_arg6 (c : Dev nD) : W1 m ρ c (Proc.devRef .tc main_arg6) = (m ((c : Thread nD τ).loc main_arg6)) := by
  show StableHlo.after hostOps0 (W0 m ρ c) (Proc.devRef .tc main_arg6) = W0 m ρ c (Proc.devRef .tc main_arg6)
  keeps hostOps0
theorem W1_arg7 (c : Dev nD) : W1 m ρ c (Proc.devRef .tc main_arg7) = (m ((c : Thread nD τ).loc main_arg7)) := by
  show StableHlo.after hostOps0 (W0 m ρ c) (Proc.devRef .tc main_arg7) = W0 m ρ c (Proc.devRef .tc main_arg7)
  keeps hostOps0
theorem W1_arg8 (c : Dev nD) : W1 m ρ c (Proc.devRef .tc main_arg8) = (m ((c : Thread nD τ).loc main_arg8)) := by
  show StableHlo.after hostOps0 (W0 m ρ c) (Proc.devRef .tc main_arg8) = W0 m ρ c (Proc.devRef .tc main_arg8)
  keeps hostOps0
theorem W1_arg9 (c : Dev nD) : W1 m ρ c (Proc.devRef .tc main_arg9) = (m ((c : Thread nD τ).loc main_arg9)) := by
  show StableHlo.after hostOps0 (W0 m ρ c) (Proc.devRef .tc main_arg9) = W0 m ρ c (Proc.devRef .tc main_arg9)
  keeps hostOps0
theorem W1_arg10 (c : Dev nD) : W1 m ρ c (Proc.devRef .tc main_arg10) = (m ((c : Thread nD τ).loc main_arg10)) := by
  show StableHlo.after hostOps0 (W0 m ρ c) (Proc.devRef .tc main_arg10) = W0 m ρ c (Proc.devRef .tc main_arg10)
  keeps hostOps0
theorem W1_arg12 (c : Dev nD) : W1 m ρ c (Proc.devRef .tc main_arg12) = (m ((c : Thread nD τ).loc main_arg12)) := by
  show StableHlo.after hostOps0 (W0 m ρ c) (Proc.devRef .tc main_arg12) = W0 m ρ c (Proc.devRef .tc main_arg12)
  keeps hostOps0

/-! ## After the first region -/

/-- The first neighbourhood layer's output is the reference's first activation. -/
theorem W2_v28 (c : Dev nD) :
    W2 m ρ c (Proc.devRef .tc main_v28) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg11)) :=
  (W2_arr m ρ c 5).trans ((Region0.final (V1 m ρ) c).trans
    ((Layers.combine_congr (W1_v22 m ρ c) (W1_arg0 m ρ c) (W1_v24 m ρ c) (W1_v26 m ρ c)
        ((congrArg (fun (b : S1x128.Idx → EReal) (q : Fin 128) => b (ix2 (0 : Fin 1) q)) (W1_v27 m ρ c)).trans
          (Layers.row_of_cast _ _))).trans
      (Cert.ReferenceIdeal.Stages.v31_eq _ _ _ _ _).symm))

end Cert.KernelIdeal.Chain

end
-- ==== Proof.Chain2.lean ====
/-
  From the first neighbourhood layer's output to the plain layer's output.

  Neither the first region nor the second stretch of host operations touches a buffer it does not name, so the
  arguments, the edge endpoints and the vector of ones pass through them unchanged. The second stretch transposes the
  plain layer's weight and lays its bias as a row; the second region then leaves the plain layer of the first
  activation, which is the reference's second activation.
-/
import proofs.«111446_j34531537060254_1_alg».proof.Proof.Gen.KernelIdeal.Frame
import proofs.«111446_j34531537060254_1_alg».proof.Proof.Region1
import proofs.«111446_j34531537060254_1_alg».proof.Proof.Chain1
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (m : (ℓ : Loc nD τ sig) → Buf (Elt Ideal) ℓ) (ρ : Dev nD → PrngReg)

/-- No operation of the named stretch writes the buffer. -/
macro "unwritten " ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## What passes the first region and the second stretch unchanged -/

/-- A buffer that is no array of the first region keeps its contents across it. -/
theorem W2_keep (c : Dev nD) (b : Ref sig .tc) (h : ∀ w, Pipeline.arrRef spec0 w ≠ b) :
    W2 m ρ c (Proc.devRef .tc b) = W1 m ρ c (Proc.devRef .tc b) := W2_of_ne m ρ c b h

/-- A buffer the second stretch does not write keeps its contents across it. -/
theorem W3_keep (c : Dev nD) (b : Ref sig .tc)
    (h : ∀ op ∈ (hostOps1 : List (HloOp τ sig (Elt Ideal))), Proc.devRef .tc b ∉ op.writes) :
    W3 m ρ c (Proc.devRef .tc b) = W2 m ρ c (Proc.devRef .tc b) := StableHlo.after_of_forall_not_mem _ _ h

/-- Across the first region, the second stretch and the second region together. -/
theorem W4_keep (c : Dev nD) (b : Ref sig .tc) (h0 : ∀ w, Pipeline.arrRef spec0 w ≠ b)
    (h1 : ∀ op ∈ (hostOps1 : List (HloOp τ sig (Elt Ideal))), Proc.devRef .tc b ∉ op.writes)
    (h2 : ∀ w, Pipeline.arrRef spec1 w ≠ b) :
    W4 m ρ c (Proc.devRef .tc b) = W1 m ρ c (Proc.devRef .tc b) :=
  (W4_of_ne m ρ c b h2).trans ((W3_keep m ρ c b h1).trans (W2_keep m ρ c b h0))

theorem W2_arg4 (c : Dev nD) : W2 m ρ c (Proc.devRef .tc main_arg4) = (m ((c : Thread nD τ).loc main_arg4)) :=
  (W2_keep m ρ c main_arg4 (by decide)).trans (W1_arg4 m ρ c)
theorem W2_arg5 (c : Dev nD) : W2 m ρ c (Proc.devRef .tc main_arg5) = (m ((c : Thread nD τ).loc main_arg5)) :=
  (W2_keep m ρ c main_arg5 (by decide)).trans (W1_arg5 m ρ c)

/-! ## After the second stretch -/

/-- The first activation is still there. -/
theorem W3_v28 (c : Dev nD) :
    W3 m ρ c (Proc.devRef .tc main_v28) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg11)) :=
  (W3_keep m ρ c main_v28 (by unwritten hostOps1)).trans (W2_v28 m ρ c)

/-- The plain layer's weight, transposed. -/
theorem W3_v30 (c : Dev nD) : W3 m ρ c (Proc.devRef .tc main_v30) = val_main_v32 (F := Ideal) (m ((c : Thread nD τ).loc main_arg4)) := by
  show StableHlo.after hostOps1 (W2 m ρ c) (Proc.devRef .tc main_v30) = _
  after_results
  rw [W2_arg4 m ρ c]
  rfl

/-- The plain layer's bias, laid as a row. -/
theorem W3_v31 (c : Dev nD) :
    W3 m ρ c (Proc.devRef .tc main_v31) = shapeCast S1x128 (m ((c : Thread nD τ).loc main_arg5)) shapeCasts_S128_S1x128 := by
  show StableHlo.after hostOps1 (W2 m ρ c) (Proc.devRef .tc main_v31) = _
  after_results
  rw [W2_arg5 m ρ c]
  rfl

/-! ## After the second region -/

/-- The plain layer's output is the reference's second activation. -/
theorem W4_v32 (c : Dev nD) :
    W4 m ρ c (Proc.devRef .tc main_v32) = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)) :=
  (W4_arr m ρ c 3).trans ((Region1.final (V3 m ρ) c).trans
    ((Layers.linear_congr (W3_v28 m ρ c) (W3_v30 m ρ c)
        ((congrArg (fun (b : S1x128.Idx → EReal) (q : Fin 128) => b (ix2 (0 : Fin 1) q)) (W3_v31 m ρ c)).trans
          (Layers.row_of_cast _ _))).trans
      (Cert.ReferenceIdeal.Stages.v37_eq _ _ _ _ _ _ _).symm))

/-! What the third stretch reads from before the first region. -/

theorem W4_v1 (c : Dev nD) : W4 m ρ c (Proc.devRef .tc main_v1) = val_main_v1 (F := Ideal) (m ((c : Thread nD τ).loc main_arg11)) :=
  (W4_keep m ρ c main_v1 (by decide) (by unwritten hostOps1) (by decide)).trans (W1_v1 m ρ c)
theorem W4_v3 (c : Dev nD) : W4 m ρ c (Proc.devRef .tc main_v3) = val_main_v3 (F := Ideal) (m ((c : Thread nD τ).loc main_arg11)) :=
  (W4_keep m ρ c main_v3 (by decide) (by unwritten hostOps1) (by decide)).trans (W1_v3 m ρ c)
theorem W4_v4 (c : Dev nD) : W4 m ρ c (Proc.devRef .tc main_v4) = val_main_v48 (F := Ideal) :=
  (W4_keep m ρ c main_v4 (by decide) (by unwritten hostOps1) (by decide)).trans (W1_v4 m ρ c)
theorem W4_arg6 (c : Dev nD) : W4 m ρ c (Proc.devRef .tc main_arg6) = (m ((c : Thread nD τ).loc main_arg6)) :=
  (W4_keep m ρ c main_arg6 (by decide) (by unwritten hostOps1) (by decide)).trans (W1_arg6 m ρ c)
theorem W4_arg7 (c : Dev nD) : W4 m ρ c (Proc.devRef .tc main_arg7) = (m ((c : Thread nD τ).loc main_arg7)) :=
  (W4_keep m ρ c main_arg7 (by decide) (by unwritten hostOps1) (by decide)).trans (W1_arg7 m ρ c)
theorem W4_arg8 (c : Dev nD) : W4 m ρ c (Proc.devRef .tc main_arg8) = (m ((c : Thread nD τ).loc main_arg8)) :=
  (W4_keep m ρ c main_arg8 (by decide) (by unwritten hostOps1) (by decide)).trans (W1_arg8 m ρ c)
theorem W4_arg9 (c : Dev nD) : W4 m ρ c (Proc.devRef .tc main_arg9) = (m ((c : Thread nD τ).loc main_arg9)) :=
  (W4_keep m ρ c main_arg9 (by decide) (by unwritten hostOps1) (by decide)).trans (W1_arg9 m ρ c)
theorem W4_arg10 (c : Dev nD) : W4 m ρ c (Proc.devRef .tc main_arg10) = (m ((c : Thread nD τ).loc main_arg10)) :=
  (W4_keep m ρ c main_arg10 (by decide) (by unwritten hostOps1) (by decide)).trans (W1_arg10 m ρ c)
theorem W4_arg12 (c : Dev nD) : W4 m ρ c (Proc.devRef .tc main_arg12) = (m ((c : Thread nD τ).loc main_arg12)) :=
  (W4_keep m ρ c main_arg12 (by decide) (by unwritten hostOps1) (by decide)).trans (W1_arg12 m ρ c)

end Cert.KernelIdeal.Chain

end
-- ==== Proof.Chain3.lean ====
/-
  From the plain layer's output to the second neighbourhood layer's output.

  The third stretch of host operations computes the mean of the second activation over each node's incoming edges
  (the same gather, scatter-adds and division as the first stretch, over the edge endpoints and the ones that the
  first stretch left), transposes two weight matrices and lays a bias as a row: the reference's own operations on the
  same values. The third region then leaves the neighbourhood layer of them, which is the reference's third activation.
-/
import proofs.«111446_j34531537060254_1_alg».proof.Proof.Gen.KernelIdeal.Frame
import proofs.«111446_j34531537060254_1_alg».proof.Proof.Region2
import proofs.«111446_j34531537060254_1_alg».proof.Proof.Chain2
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (m : (ℓ : Loc nD τ sig) → Buf (Elt Ideal) ℓ) (ρ : Dev nD → PrngReg)

/-! ## After the third stretch -/

set_option maxHeartbeats 8000000 in
/-- The mean of the second activation over incoming edges. -/
theorem W5_v50 (c : Dev nD) :
    W5 m ρ c (Proc.devRef .tc main_v50) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)) := by
  show StableHlo.after hostOps2 (W4 m ρ c) (Proc.devRef .tc main_v50) = _
  after_results_simp
  rw [W4_v1 m ρ c, W4_v3 m ρ c, W4_v4 m ρ c, W4_v32 m ρ c]
  unfold val_main_v56 val_main_v55 val_main_v54 val_main_v53 val_main_v52 val_main_cst_9 val_main_v51 val_main_v50 val_main_v49 val_main_cst_8
    val_main_v47 val_main_v46 val_main_v45 val_main_cst_6 val_main_v44 val_main_v43 val_main_v42 val_main_v41 val_main_v40 val_main_c_5
    val_main_v39 val_main_v38 val_main_c_4
  rfl

/-- A buffer the third stretch does not write keeps its contents across it. -/
theorem W5_keep (c : Dev nD) (b : Ref sig .tc)
    (h : ∀ op ∈ (hostOps2 : List (HloOp τ sig (Elt Ideal))), Proc.devRef .tc b ∉ op.writes) :
    W5 m ρ c (Proc.devRef .tc b) = W4 m ρ c (Proc.devRef .tc b) := StableHlo.after_of_forall_not_mem _ _ h

/-- The second activation is still there. -/
theorem W5_v32 (c : Dev nD) :
    W5 m ρ c (Proc.devRef .tc main_v32) = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)) :=
  (W5_keep m ρ c main_v32 (by unwritten hostOps2)).trans (W4_v32 m ρ c)

/-- The third layer's first weight matrix, transposed. -/
theorem W5_v52 (c : Dev nD) : W5 m ρ c (Proc.devRef .tc main_v52) = val_main_v57 (F := Ideal) (m ((c : Thread nD τ).loc main_arg6)) := by
  show StableHlo.after hostOps2 (W4 m ρ c) (Proc.devRef .tc main_v52) = _
  after_results
  rw [W4_arg6 m ρ c]
  rfl

/-- Its second weight matrix, transposed. -/
theorem W5_v54 (c : Dev nD) : W5 m ρ c (Proc.devRef .tc main_v54) = val_main_v62 (F := Ideal) (m ((c : Thread nD τ).loc main_arg8)) := by
  show StableHlo.after hostOps2 (W4 m ρ c) (Proc.devRef .tc main_v54) = _
  after_results
  rw [W4_arg8 m ρ c]
  rfl

/-- Its bias, laid as a row. -/
theorem W5_v55 (c : Dev nD) :
    W5 m ρ c (Proc.devRef .tc main_v55) = shapeCast S1x128 (m ((c : Thread nD τ).loc main_arg7)) shapeCasts_S128_S1x128 := by
  show StableHlo.after hostOps2 (W4 m ρ c) (Proc.devRef .tc main_v55) = _
  after_results
  rw [W4_arg7 m ρ c]
  rfl

/-! ## After the third region -/

/-- The second neighbourhood layer's output is the reference's third activation. -/
theorem W6_v56 (c : Dev nD) :
    W6 m ρ c (Proc.devRef .tc main_v56) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) :=
  (W6_arr m ρ c 5).trans ((Region2.final (V5 m ρ) c).trans
    ((Layers.combine_congr (W5_v50 m ρ c) (W5_v32 m ρ c) (W5_v52 m ρ c) (W5_v54 m ρ c)
        ((congrArg (fun (b : S1x128.Idx → EReal) (q : Fin 128) => b (ix2 (0 : Fin 1) q)) (W5_v55 m ρ c)).trans
          (Layers.row_of_cast _ _))).trans
      (Cert.ReferenceIdeal.Stages.v65_eq _ _ _ _ _ _ _ _ _ _).symm))

/-! What the last stretch reads from the launch. -/

/-- Across the third stretch and the third region together. -/
theorem W6_keep (c : Dev nD) (b : Ref sig .tc)
    (h3 : ∀ op ∈ (hostOps2 : List (HloOp τ sig (Elt Ideal))), Proc.devRef .tc b ∉ op.writes)
    (h4 : ∀ w, Pipeline.arrRef spec2 w ≠ b) :
    W6 m ρ c (Proc.devRef .tc b) = W4 m ρ c (Proc.devRef .tc b) :=
  (W6_of_ne m ρ c b h4).trans (W5_keep m ρ c b h3)

theorem W6_arg9 (c : Dev nD) : W6 m ρ c (Proc.devRef .tc main_arg9) = (m ((c : Thread nD τ).loc main_arg9)) :=
  (W6_keep m ρ c main_arg9 (by unwritten hostOps2) (by decide)).trans (W4_arg9 m ρ c)
theorem W6_arg10 (c : Dev nD) : W6 m ρ c (Proc.devRef .tc main_arg10) = (m ((c : Thread nD τ).loc main_arg10)) :=
  (W6_keep m ρ c main_arg10 (by unwritten hostOps2) (by decide)).trans (W4_arg10 m ρ c)
theorem W6_arg12 (c : Dev nD) : W6 m ρ c (Proc.devRef .tc main_arg12) = (m ((c : Thread nD τ).loc main_arg12)) :=
  (W6_keep m ρ c main_arg12 (by unwritten hostOps2) (by decide)).trans (W4_arg12 m ρ c)

end Cert.KernelIdeal.Chain

end
-- ==== Proof.Chain4.lean ====
/-
  From the second neighbourhood layer's output to the result.

  The last stretch of host operations pools the third activation over each graph of the batch (a scatter-add of the
  node rows onto their graph's row, the graph sizes by a second scatter-add, a division by the size clamped below at
  one), transposes the read-out's weight and lays its bias as a row: the reference's own operations on the same
  values. The last region then leaves the read-out of them, which is the reference's result.
-/
import proofs.«111446_j34531537060254_1_alg».proof.Proof.Gen.KernelIdeal.Frame
import proofs.«111446_j34531537060254_1_alg».proof.Proof.Region3
import proofs.«111446_j34531537060254_1_alg».proof.Proof.Chain3
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (m : (ℓ : Loc nD τ sig) → Buf (Elt Ideal) ℓ) (ρ : Dev nD → PrngReg)

/-! ## After the last stretch -/

set_option maxHeartbeats 8000000 in
/-- The mean of the third activation over each graph. -/
theorem W7_v68 (c : Dev nD) :
    W7 m ρ c (Proc.devRef .tc main_v68) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  show StableHlo.after hostOps3 (W6 m ρ c) (Proc.devRef .tc main_v68) = _
  after_results_simp
  rw [W6_v56 m ρ c, W6_arg12 m ρ c]
  unfold val_main_v77 val_main_v76 val_main_v75 val_main_v74 val_main_v73 val_main_cst_13 val_main_v72 val_main_v71 val_main_v70 val_main_cst_12
    val_main_v69 val_main_cst_11 val_main_v68 val_main_v67 val_main_v66 val_main_cst_10
  rfl

/-- The read-out's weight, transposed. -/
theorem W7_v70 (c : Dev nD) : W7 m ρ c (Proc.devRef .tc main_v70) = val_main_v78 (F := Ideal) (m ((c : Thread nD τ).loc main_arg9)) := by
  show StableHlo.after hostOps3 (W6 m ρ c) (Proc.devRef .tc main_v70) = _
  after_results
  rw [W6_arg9 m ρ c]
  rfl

/-- The read-out's bias, laid as a row. -/
theorem W7_v71 (c : Dev nD) :
    W7 m ρ c (Proc.devRef .tc main_v71) = shapeCast S1x3 (m ((c : Thread nD τ).loc main_arg10)) shapeCasts_S3_S1x3 := by
  show StableHlo.after hostOps3 (W6 m ρ c) (Proc.devRef .tc main_v71) = _
  after_results
  rw [W6_arg10 m ρ c]
  rfl

/-! ## After the last region -/

/-- THE RESULT: the kernel program's result array ends at the reference's result stage of the same arguments. -/
theorem W8_v72 (c : Dev nD) :
    W8 m ρ c (Proc.devRef .tc main_v72) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W8_arr m ρ c 3).trans ((Region3.final (V7 m ρ) c).trans
    ((Layers.affine_congr (W7_v68 m ρ c) (W7_v70 m ρ c)
        ((congrArg (fun (b : S1x3.Idx → EReal) (q : Fin 3) => b (ix2 (0 : Fin 1) q)) (W7_v71 m ρ c)).trans
          (Layers.row_of_cast _ _))).trans
      (Cert.ReferenceIdeal.Stages.v82_eq _ _ _ _ _ _ _ _ _ _ _ _ _).symm))

end Cert.KernelIdeal.Chain

end
-- ==== Proof.lean ====
/-
  A two-layer neighbourhood network with a plain layer between, mean-pooled per graph and read out: the kernel program
  against its reference, over the extended reals.

  Both programs gather the source rows of every edge, add them onto the destination rows, divide by the in-degree
  clamped below at one, and do so again on the second activation; both pool the node rows per graph the same way.
  These host operations are the same in the two programs. Between them the kernel program runs each dense layer as a
  region over row blocks with narrowed operands, where the reference multiplies whole matrices; on extended reals a
  change of float format is the identity and a matrix product is the sum over the inner index on both sides, so each
  region leaves the reference's activation. The one difference in arithmetic is the order in which a neighbourhood
  layer adds its bias: after both products in the kernel, between them in the reference; addition of extended reals
  is commutative and associative, so the sums agree without any appeal to finiteness, and the precondition is not used.

  The frames of the two kernel programs are the generated ones; the reference's frame is its generated run with the
  result dropped; nothing was rewritten by the idealization, so there is nothing to preserve; the algebraic claim
  pairs the kernel program's run, whose result array is read back through the four regions and the four stretches of
  host operations to the reference's last stage of the same arguments, with the reference's run.
-/
import proofs.«111446_j34531537060254_1_alg».proof.Defs
import proofs.«111446_j34531537060254_1_alg».proof.Proof.Gen.Kernel
import proofs.«111446_j34531537060254_1_alg».proof.Proof.Gen.Kernel.Skeleton
import proofs.«111446_j34531537060254_1_alg».proof.Proof.Gen.Kernel.Launch
import proofs.«111446_j34531537060254_1_alg».proof.Proof.Gen.Kernel.Points
import proofs.«111446_j34531537060254_1_alg».proof.Proof.Gen.Kernel.Frame
import proofs.«111446_j34531537060254_1_alg».proof.Proof.Gen.KernelIdeal
import proofs.«111446_j34531537060254_1_alg».proof.Proof.Gen.KernelIdeal.Skeleton
import proofs.«111446_j34531537060254_1_alg».proof.Proof.Gen.KernelIdeal.Launch
import proofs.«111446_j34531537060254_1_alg».proof.Proof.Gen.KernelIdeal.Points
import proofs.«111446_j34531537060254_1_alg».proof.Proof.Gen.KernelIdeal.Frame
import proofs.«111446_j34531537060254_1_alg».proof.Proof.Gen.ReferenceIdeal
import proofs.«111446_j34531537060254_1_alg».proof.Proof.Gen.ReferenceIdeal.Run
import proofs.«111446_j34531537060254_1_alg».proof.Proof.Gen.ReferenceIdeal.Read
import proofs.«111446_j34531537060254_1_alg».proof.Proof.Gen.Pre_finite_inputs
import proofs.«111446_j34531537060254_1_alg».proof.Proof.KernelRun
import proofs.«111446_j34531537060254_1_alg».proof.Proof.Chain4
import Idealize.ShloMosaic.Adequacy
import Idealize.ShloMosaic.Init

noncomputable section

namespace Cert.Proof

open Idealize.ShloMosaic Idealize.SL.Sem

/-- The kernel program runs and keeps its arguments: the generated frame. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of the arguments they agree on. -/
theorem algebraic : Cert.algebraic_KernelIdeal_ReferenceIdeal := by
  intro m ρ m' ρ' _ hagree
  refine ⟨fun c => Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.W8_v72 m ρ c), (h c).2⟩)
      (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v82_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
